-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) (main_arg1 : FVec F S32x3x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  let main_v4 : FVec F S32x3x512x512 .f32 := Host.absf main_arg1
  let main_cst_0 : FVec F S_ .f32 := constant S_ .f32 0x7F800000#32
  let main_v5 : FVec F S32x3x512x512 .f32 := broadcastInDim S32x3x512x512 ![] bcast_S_S32x3x512x512 main_cst_0
  let main_v6 : IVec S32x3x512x512 1 := cmpf .olt main_v4 main_v5
  let main_c_1 : IVec S_ 1 := constantI S_ 1 1#1
  let main_v7 : IVec S_ 1 := (fun x v => Host.reduce IntOp.andi x v reducesTo_S32x3x512x512_S_d0_1_2_3 h_S_) main_v6 main_c_1
  let main_v8 : IVec S_ 1 := andi main_v3 main_v7
  main_v8
-- ==== Kernel.lean ====
abbrev S32x3x512x512 : Shape := ⟨4, ![32, 3, 512, 512]⟩
abbrev S2x1x1 : Shape := ⟨3, ![2, 1, 1]⟩
abbrev S1x3x512x512 : Shape := ⟨4, ![1, 3, 512, 512]⟩
abbrev S1x1x1 : Shape := ⟨3, ![1, 1, 1]⟩
abbrev S1x512x512 : Shape := ⟨3, ![1, 512, 512]⟩
abbrev S1x512 : Shape := ⟨2, ![1, 512]⟩
abbrev S1x512x1 : Shape := ⟨3, ![1, 512, 1]⟩
abbrev S1x1 : Shape := ⟨2, ![1, 1]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S2x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x3x512x512, .f32⟩
  | .local _ .vmem, ⟨1, _⟩ => ⟨S1x3x512x512, .f32⟩
  | .local _ .vmem, ⟨2, _⟩ => ⟨S1x3x512x512, .f32⟩
  | .local _ .vmem, ⟨3, _⟩ => ⟨S1x3x512x512, .f32⟩
  | .local _ .vmem, ⟨4, _⟩ => ⟨S1x1x1, .f32⟩
  | .local _ .vmem, ⟨5, _⟩ => ⟨S1x1x1, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  inb_S1x3x512x512_S1x3x512x512_0_0_0_0 : ∀ a, (![0, 0, 0, 0] : Fin 4 → Nat) a + S1x3x512x512.size a ≤ S1x3x512x512.size a
  h_S1x3x512x512 : 0 < S1x3x512x512.numel
  reduces_S1x3x512x512_S1x512x512 : S1x3x512x512.Reduces [1] S1x512x512
  reduces_S1x512x512_S1x512 : S1x512x512.Reduces [2] S1x512
  shapeCasts_S1x512_S1x512x1 : S1x512.ShapeCasts S1x512x1
  reduces_S1x512x1_S1x1 : S1x512x1.Reduces [1] S1x1
  shapeCasts_S1x1_S1x1x1 : S1x1.ShapeCasts S1x1x1
  reduces_S1x1x1_S1x1 : S1x1x1.Reduces [0] S1x1
  shapeCasts_S1x1x1_S1x1x1 : S1x1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S32x3x512x512.size a
  hwx0_0 : ∀ i : grid0.Coords, EltTy.bits .f32 = 32 ∨ (Rect.block (s := S32x3x512x512) S1x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512x512.size a ≤ S32x3x512x512.size a
  hwx0_1 : ∀ i : grid0.Coords, EltTy.bits .f32 = 32 ∨ (Rect.block (s := S32x3x512x512) S1x3x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_arg0) S1x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x3x512x512 : Shape := ⟨4, ![32, 3, 512, 512]⟩
abbrev S_ : Shape := ⟨0, ![]⟩
abbrev S32x512x512 : Shape := ⟨3, ![32, 512, 512]⟩

abbrev nBuf : Space → Nat
  | .hbm => 62
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S_, .f32⟩
  | .hbm, ⟨3, _⟩ => ⟨S32x3x512x512, .f32⟩
  | .hbm, ⟨4, _⟩ => ⟨S32x3x512x512, .f32⟩
  | .hbm, ⟨5, _⟩ => ⟨S_, .f32⟩
  | .hbm, ⟨6, _⟩ => ⟨S32x3x512x512, .f32⟩
  | .hbm, ⟨7, _⟩ => ⟨S32x3x512x512, .f32⟩
  | .hbm, ⟨8, _⟩ => ⟨S_, .f32⟩
  | .hbm, ⟨9, _⟩ => ⟨S32x512x512, .f32⟩
  | .hbm, ⟨10, _⟩ => ⟨S_, .f32⟩
  | .hbm, ⟨11, _⟩ => ⟨S32x512x512, .f32⟩
  | .hbm, ⟨12, _⟩ => ⟨S32x512x512, .f32⟩
  | .hbm, ⟨13, _⟩ => ⟨S_, .f32⟩
  | .hbm, ⟨14, _⟩ => ⟨S32x512x512, .f32⟩
  | .hbm, ⟨15, _⟩ => ⟨S32x512x512, .i1⟩
  | .hbm, ⟨16, _⟩ => ⟨S_, .f32⟩
  | .hbm, ⟨17, _⟩ => ⟨S_, .f32⟩
  | .hbm, ⟨18, _⟩ => ⟨S32x512x512, .f32⟩
  | .hbm, ⟨19, _⟩ => ⟨S32x512x512, .f32⟩
  | .hbm, ⟨20, _⟩ => ⟨S_, .f32⟩
  | .hbm, ⟨21, _⟩ => ⟨S32x512x512, .f32⟩
  | .hbm, ⟨22, _⟩ => ⟨S32x512x512, .i1⟩
  | .hbm, ⟨23, _⟩ => ⟨S32x512x512, .f32⟩
  | .hbm, ⟨24, _⟩ => ⟨S_, .f32⟩
  | .hbm, ⟨25, _⟩ => ⟨S_, .f32⟩
  | .hbm, ⟨26, _⟩ => ⟨S32x512x512, .f32⟩
  | .hbm, ⟨27, _⟩ => ⟨S32x512x512, .f32⟩
  | .hbm, ⟨28, _⟩ => ⟨S_, .f32⟩
  | .hbm, ⟨29, _⟩ => ⟨S32x3x512x512, .f32⟩
  | .hbm, ⟨30, _⟩ => ⟨S32x3x512x512, .f32⟩
  | .hbm, ⟨31, _⟩ => ⟨S_, .f32⟩
  | .hbm, ⟨32, _⟩ => ⟨S32x3x512x512, .f32⟩
  | .hbm, ⟨33, _⟩ => ⟨S32x3x512x512, .f32⟩
  | .hbm, ⟨34, _⟩ => ⟨S_, .f32⟩
  | .hbm, ⟨35, _⟩ => ⟨S32x512x512, .f32⟩
  | .hbm, ⟨36, _⟩ => ⟨S_, .f32⟩
  | .hbm, ⟨37, _⟩ => ⟨S32x512x512, .f32⟩
  | .hbm, ⟨38, _⟩ => ⟨S32x512x512, .f32⟩
  | .hbm, ⟨39, _⟩ => ⟨S_, .f32⟩
  | .hbm, ⟨40, _⟩ => ⟨S32x512x512, .f32⟩
  | .hbm, ⟨41, _⟩ => ⟨S32x512x512, .i1⟩
  | .hbm, ⟨42, _⟩ => ⟨S_, .f32⟩
  | .hbm, ⟨43, _⟩ => ⟨S_, .f32⟩
  | .hbm, ⟨44, _⟩ => ⟨S32x512x512, .f32⟩
  | .hbm, ⟨45, _⟩ => ⟨S32x512x512, .f32⟩
  | .hbm, ⟨46, _⟩ => ⟨S_, .f32⟩
  | .hbm, ⟨47, _⟩ => ⟨S32x512x512, .f32⟩
  | .hbm, ⟨48, _⟩ => ⟨S32x512x512, .i1⟩
  | .hbm, ⟨49, _⟩ => ⟨S32x512x512, .f32⟩
  | .hbm, ⟨50, _⟩ => ⟨S_, .f32⟩
  | .hbm, ⟨51, _⟩ => ⟨S_, .f32⟩
  | .hbm, ⟨52, _⟩ => ⟨S32x512x512, .f32⟩
  | .hbm, ⟨53, _⟩ => ⟨S32x512x512, .f32⟩
  | .hbm, ⟨54, _⟩ => ⟨S32x512x512, .f32⟩
  | .hbm, ⟨55, _⟩ => ⟨S32x512x512, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_v8 : Ref sig .tc := ⟨.hbm, 15, rfl⟩
abbrev main_cst_4 : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_cst_5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_6 : Ref sig .tc := ⟨.hbm, 24, rfl⟩
abbrev main_call1_v0 : Ref sig .tc := ⟨.hbm, 25, rfl⟩
abbrev main_call1_v1 : Ref sig .tc := ⟨.hbm, 26, rfl⟩
abbrev main_v13 : Ref sig .tc := ⟨.hbm, 27, rfl⟩
abbrev main_cst_7 : Ref sig .tc := ⟨.hbm, 28, rfl⟩
abbrev main_v14 : Ref sig .tc := ⟨.hbm, 29, rfl⟩
abbrev main_v15 : Ref sig .tc := ⟨.hbm, 30, rfl⟩
abbrev main_cst_8 : Ref sig .tc := ⟨.hbm, 31, rfl⟩
abbrev main_v16 : Ref sig .tc := ⟨.hbm, 32, rfl⟩
abbrev main_v17 : Ref sig .tc := ⟨.hbm, 33, rfl⟩
abbrev main_cst_9 : Ref sig .tc := ⟨.hbm, 34, rfl⟩
abbrev main_v18 : Ref sig .tc := ⟨.hbm, 35, rfl⟩
abbrev main_cst_10 : Ref sig .tc := ⟨.hbm, 36, rfl⟩
abbrev main_v19 : Ref sig .tc := ⟨.hbm, 37, rfl⟩
abbrev main_v20 : Ref sig .tc := ⟨.hbm, 38, rfl⟩
abbrev main_cst_11 : Ref sig .tc := ⟨.hbm, 39, rfl⟩
abbrev main_v21 : Ref sig .tc := ⟨.hbm, 40, rfl⟩
abbrev main_v22 : Ref sig .tc := ⟨.hbm, 41, rfl⟩
abbrev main_cst_12 : Ref sig .tc := ⟨.hbm, 42, rfl⟩
abbrev main_call2_v0 : Ref sig .tc := ⟨.hbm, 43, rfl⟩
abbrev main_call2_v1 : Ref sig .tc := ⟨.hbm, 44, rfl⟩
abbrev main_v23 : Ref sig .tc := ⟨.hbm, 45, rfl⟩
abbrev main_cst_13 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_14 : Ref sig .tc := ⟨.hbm, 50, rfl⟩
abbrev main_call3_v0 : Ref sig .tc := ⟨.hbm, 51, rfl⟩
abbrev main_call3_v1 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_15 : Ref sig .tc := ⟨.hbm, 56, rfl⟩
abbrev main_v30 : Ref sig .tc := ⟨.hbm, 57, rfl⟩
abbrev main_cst_16 : Ref sig .tc := ⟨.hbm, 58, rfl⟩
abbrev main_v31 : Ref sig .tc := ⟨.hbm, 59, rfl⟩
abbrev main_cst_17 : Ref sig .tc := ⟨.hbm, 60, rfl⟩
abbrev main_v32 : Ref sig .tc := ⟨.hbm, 61, rfl⟩

abbrev nD : Nat := 1
abbrev τ : Topo := Topo.v7x

variable {F : FTy → Type} [FloatOps F]

class Facts₀ : Prop where
  bcast_S_S32x3x512x512 : S_.BroadcastsInDim S32x3x512x512 (![] : Fin 0 → Fin S32x3x512x512.rank)
  reducesTo_S32x3x512x512_S32x512x512_d1 : S32x3x512x512.ReducesTo [1] S32x512x512
  h_S_ : 0 < S_.numel
  bcast_S_S32x512x512 : S_.BroadcastsInDim S32x512x512 (![] : Fin 0 → Fin S32x512x512.rank)
  reducesTo_S32x512x512_S_d0_1_2 : S32x512x512.ReducesTo [0, 1, 2] S_

variable [Facts₀]

class Facts : Prop extends Facts₀ where

variable [Facts]
-- ==== Proof.Pieces.lean ====
/-
  What the kernel body leaves in the accumulator slot's staging buffer, in each of its two control cases, as a value.

  At the first image of a group the body stores zero into the slot, reads the slot back, and stores the read value plus
  the image's sum of differences; at every other image it reads what the image before left and stores that plus the
  image's sum. In both cases the slot ends at ONE term: the body's final store's payload, applied to the two input
  blocks' per-pixel saturations and to the value the slot held when it was read (zero, or the running sum).
-/
import proofs.«146994_j60035052863713_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A LATER IMAGE of a group: the slot, holding `xo`, ends at `xo` plus the sum over the pixels of the absolute
    difference of the two blocks' saturations (the one covering store's payload, its loads reading the whole buffers). -/
theorem out_later (c : Dev nD) (i : grid0.Coords) (a2 : Memref sig .tc .vmem S1x3x512x512 .f32) (h2 : a2.IsWhole)
    (a3 : Memref sig .tc .vmem S1x3x512x512 .f32) (h3 : a3.IsWhole) (a4 : Memref sig .tc .vmem S1x1x1 .f32) (h4 : a4.IsWhole)
    (hc : ¬cond0_0 i) (x0 x1 : Vec F S1x3x512x512 .f32) (xo : Vec F S1x1x1 .f32) :
    out0_B_2 c i a2 h2 a3 h3 a4 h4 hc x0 x1 xo = k0_pay1 (k0_pay3 x0) (k0_pay4 x1) xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S1x3x512x512) hz4,
    View.ld_unit_zero (S := S1x1x1) hz3]

/-- THE FIRST IMAGE of a group: the slot is set to the zero block, read back, and ends at zero plus the image's sum. -/
theorem out_first (c : Dev nD) (i : grid0.Coords) (a2 : Memref sig .tc .vmem S1x3x512x512 .f32) (h2 : a2.IsWhole)
    (a3 : Memref sig .tc .vmem S1x3x512x512 .f32) (h3 : a3.IsWhole) (a4 : Memref sig .tc .vmem S1x1x1 .f32) (h4 : a4.IsWhole)
    (hc : cond0_0 i) (x0 x1 : Vec F S1x3x512x512 .f32) :
    out0_A_2 c i a2 h2 a3 h3 a4 h4 hc x0 x1 = k0_pay1 (k0_pay3 x0) (k0_pay4 x1) (k0_pay2 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, h4.read_unread, View.ld_unit_zero (S := S1x3x512x512) hz4,
    View.ld_unit_zero (S := S1x1x1) hz3]

end Cert.KernelIdeal.Body

end
-- ==== Proof.Consts.lean ====
/-
  The float literals the two programs spell, as the extended reals their bit patterns denote at the ideal
  instance: zero, one, minus one, one half, and the two infinities that start a minimum and a maximum.
  They are evaluated here once; every other module cites these equations and never opens a pattern.
-/
import Idealize.ShloMosaic.PureOps.Ideal

noncomputable section

namespace Cert.Consts

open Idealize.ShloMosaic

/-- The pattern of `+0.0` denotes `0`. -/
theorem ofBits_zero : Ideal.ofBits .f32 0x00000000#32 = 0 := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-- The pattern of `-1.0` denotes `-1`. -/
theorem ofBits_negOne : Ideal.ofBits .f32 0xBF800000#32 = ((-1 : ℝ) : EReal) := by
  simp [Ideal.ofBits, Ideal.ieee, -EReal.coe_mul]; norm_num

/-- The pattern of `0.5` denotes the real one half. -/
theorem ofBits_half : Ideal.ofBits .f32 0x3F000000#32 = ((1 / 2 : ℝ) : EReal) := by
  simp [Ideal.ofBits, Ideal.ieee, -EReal.coe_mul]; norm_num

/-- The pattern of `-inf` denotes the bottom of the extended reals. -/
theorem ofBits_negInf : Ideal.ofBits .f32 0xFF800000#32 = ⊥ := by
  simp [Ideal.ofBits, Ideal.ieee]

/-- The pattern of `+inf` denotes the top of the extended reals. -/
theorem ofBits_posInf : Ideal.ofBits .f32 0x7F800000#32 = ⊤ := by
  simp [Ideal.ofBits, Ideal.ieee]

end Cert.Consts

end
-- ==== Proof.Pixel.lean ====
/-
  One pixel's saturation, as each program computes it from the pixel's three channel values.

  The kernel takes the channel maximum `M` and minimum `m` and answers `(M - m) / (M + 1)` where `M > -1`, else `0`.
  The reference first maps every channel `x` to `(x + 1) / 2`, takes the maximum `v` and minimum `n` of those, and
  answers `(v - n) / v` where `v > 0`, else `0`. The map `x ↦ (x + 1) / 2` is increasing, so `v = (M + 1) / 2` and
  `n = (m + 1) / 2`; the two tests agree, and where they pass
      (v - n) / v = ((M - m) / 2) / ((M + 1) / 2) = (M - m) / (M + 1).
  The cancellation of the common factor one half needs real numbers: on finite channel values the two are equal.
-/
import Idealize.ShloMosaic.PureOps.Ideal
import Idealize.ShloMosaic.PureOps.Ideal.Laws
import Idealize.ShloMosaic.Lib.ValueIdx
import proofs.«146994_j60035052863713_1_alg».proof.Proof.Consts

noncomputable section

namespace Cert.Pixel

open Idealize.ShloMosaic Idealize.ShloMosaic.ValueIdx

/-- A fold of a commutative, associative operation over the three channels, written out. -/
theorem fold_fin3 {α : Type} (op : α → α → α) [Std.Commutative op] [Std.Associative op] (b : α) (f : Fin 3 → α) :
    (Finset.univ : Finset (Fin 3)).fold op b f = op (f 0) (op (f 1) (op (f 2) b)) := by
  have h : (Finset.univ : Finset (Fin 3)) = insert 0 (insert 1 (insert 2 ∅)) := by decide
  rw [h, Finset.fold_insert (by decide), Finset.fold_insert (by decide), Finset.fold_insert (by decide),
    Finset.fold_empty]

/-- The kernel's answer from the channel maximum `M` and minimum `m`. -/
def ofMaxMin (M m : EReal) : EReal :=
  Scalar.select (Ideal.cmp .ogt M (Ideal.ofBits .f32 0xBF800000#32))
    (Ideal.div (M - m) (Scalar.select (Ideal.cmp .ogt M (Ideal.ofBits .f32 0xBF800000#32))
      (M + Ideal.ofBits .f32 0x3F800000#32) (Ideal.ofBits .f32 0x3F800000#32)))
    (Ideal.ofBits .f32 0x00000000#32)

/-- The reference's answer from the maximum `v` and minimum `n` of the shifted, halved channels. -/
def ofValMin (v n : EReal) : EReal :=
  Scalar.select (Ideal.cmp .ogt v (Ideal.ofBits .f32 0x00000000#32))
    (Ideal.div (v - n) (Scalar.select (Ideal.cmp .ogt v (Ideal.ofBits .f32 0x00000000#32))
      v (Ideal.ofBits .f32 0x3F800000#32)))
    (Ideal.ofBits .f32 0x00000000#32)

/-- The kernel's saturation of a pixel with channel values `a`. -/
def sat (a : Fin 3 → EReal) : EReal :=
  ofMaxMin (Finset.univ.fold max (Ideal.ofBits .f32 0xFF800000#32) a)
    (Finset.univ.fold min (Ideal.ofBits .f32 0x7F800000#32) a)

/-- The reference's saturation of the same pixel. -/
def satRef (a : Fin 3 → EReal) : EReal :=
  ofValMin
    (Finset.univ.fold max (Ideal.ofBits .f32 0xFF800000#32)
      fun c => (a c + Ideal.ofBits .f32 0x3F800000#32) * Ideal.ofBits .f32 0x3F000000#32)
    (Finset.univ.fold min (Ideal.ofBits .f32 0x7F800000#32)
      fun c => (a c + Ideal.ofBits .f32 0x3F800000#32) * Ideal.ofBits .f32 0x3F000000#32)

/-- A strict comparison that holds answers the set bit, -/
theorem cmp_ogt_of_lt {x y : EReal} (h : y < x) : Ideal.cmp .ogt x y = 1#1 := by
  show BitVec.ofBool (decide (y < x)) = 1#1
  rw [decide_eq_true h]; rfl

/-- and one that fails answers the clear bit. -/
theorem cmp_ogt_of_not_lt {x y : EReal} (h : ¬y < x) : Ideal.cmp .ogt x y = 0#1 := by
  show BitVec.ofBool (decide (y < x)) = 0#1
  rw [decide_eq_false h]; rfl

/-- The inclusion of the reals in the extended reals keeps maxima and minima. -/
theorem coe_max (a b : ℝ) : ((max a b : ℝ) : EReal) = max (a : EReal) (b : EReal) :=
  EReal.coe_strictMono.monotone.map_max
theorem coe_min (a b : ℝ) : ((min a b : ℝ) : EReal) = min (a : EReal) (b : EReal) :=
  EReal.coe_strictMono.monotone.map_min

/-- On real maximum and minimum the reference's form at `(M + 1) / 2`, `(m + 1) / 2` is the kernel's at `M`, `m`. -/
theorem ofValMin_half (M m : ℝ) :
    ofValMin (((M + 1) * (1 / 2) : ℝ) : EReal) (((m + 1) * (1 / 2) : ℝ) : EReal) = ofMaxMin (M : EReal) (m : EReal) := by
  unfold ofValMin ofMaxMin
  rw [Consts.ofBits_zero, Consts.ofBits_one, Consts.ofBits_negOne]
  by_cases h : -1 < M
  · have hk : Ideal.cmp .ogt (M : EReal) ((-1 : ℝ) : EReal) = 1#1 :=
      cmp_ogt_of_lt (EReal.coe_lt_coe_iff.mpr h)
    have hv : (0 : ℝ) < (M + 1) * (1 / 2) := by linarith
    have hr : Ideal.cmp .ogt (((M + 1) * (1 / 2) : ℝ) : EReal) 0 = 1#1 :=
      cmp_ogt_of_lt (EReal.coe_pos.mpr hv)
    rw [hk, hr, select_one, select_one, select_one, select_one]
    have hM1 : M + 1 ≠ 0 := by linarith
    rw [← EReal.coe_sub, ← EReal.coe_sub, ← EReal.coe_one, ← EReal.coe_add, Ideal.div_coe hv.ne', Ideal.div_coe hM1,
      ← EReal.coe_mul, ← EReal.coe_mul]
    congr 1
    field_simp
    ring
  · have hk : Ideal.cmp .ogt (M : EReal) ((-1 : ℝ) : EReal) = 0#1 :=
      cmp_ogt_of_not_lt fun hc => h (EReal.coe_lt_coe_iff.mp hc)
    have hv : ¬ (0 : ℝ) < (M + 1) * (1 / 2) := by
      intro hc; apply h; linarith
    have hr : Ideal.cmp .ogt (((M + 1) * (1 / 2) : ℝ) : EReal) 0 = 0#1 :=
      cmp_ogt_of_not_lt fun hc => hv (EReal.coe_pos.mp hc)
    rw [hk, hr, select_zero, select_zero]

/-- The shifted, halved channel value is an increasing function of the channel value. -/
theorem half_mono : Monotone fun r : ℝ => (r + 1) * (1 / 2) := fun a b h => by
  show (a + 1) * (1 / 2) ≤ (b + 1) * (1 / 2)
  linarith

theorem half_max (a b : ℝ) : max ((a + 1) * (1 / 2)) ((b + 1) * (1 / 2)) = (max a b + 1) * (1 / 2) :=
  (half_mono.map_max (a := a) (b := b)).symm
theorem half_min (a b : ℝ) : min ((a + 1) * (1 / 2)) ((b + 1) * (1 / 2)) = (min a b + 1) * (1 / 2) :=
  (half_mono.map_min (a := a) (b := b)).symm

/-- ON FINITE CHANNEL VALUES the reference's saturation of a pixel is the kernel's. -/
theorem satRef_eq_sat (a : Fin 3 → EReal) (ha : ∀ c, ∃ r : ℝ, a c = (r : EReal)) : satRef a = sat a := by
  obtain ⟨r0, h0⟩ := ha 0
  obtain ⟨r1, h1⟩ := ha 1
  obtain ⟨r2, h2⟩ := ha 2
  unfold satRef sat
  rw [fold_fin3, fold_fin3, fold_fin3, fold_fin3, h0, h1, h2, Consts.ofBits_one, Consts.ofBits_half,
    Consts.ofBits_negInf, Consts.ofBits_posInf, max_bot_right, max_bot_right, min_top_right, min_top_right]
  simp only [← EReal.coe_one, ← EReal.coe_add, ← EReal.coe_mul, ← coe_max, ← coe_min, half_max, half_min]
  exact ofValMin_half _ _

end Cert.Pixel

end
-- ==== Proof.Payload.lean ====
/-
  The kernel body's arithmetic read at an index, over the extended reals.

  At pixel `(h, w)` of a block the per-pixel payload is the saturation of the block's three channel values there
  (the channel maximum and minimum are folds over the three coordinates of the channel axis). The slot's payload adds,
  to the value the slot held, the sum over all pixels of the absolute difference of two such saturation planes: the
  body sums along a row, lays the row sums out as a column, sums the column, and sums the one remaining entry, and the
  three shape changes in between move no entry.
-/
import proofs.«146994_j60035052863713_1_alg».proof.Proof.Gen.KernelIdeal.Skeleton
import Idealize.ShloMosaic.Lib.Pipeline.Value
import Idealize.ShloMosaic.Lib.ValueIdx
import Idealize.ShloMosaic.PureOps.Ideal.Laws
import proofs.«146994_j60035052863713_1_alg».proof.Proof.Pixel

noncomputable section

open Idealize.ShloMosaic Idealize.ShloMosaic.TcCoe Idealize.ShloMosaic.ValueIdx

namespace Cert.KernelIdeal.Body

open Cert.KernelIdeal Cert.KernelIdeal.Gen

-- a reduction is read through the library's lemmas only: its body is a walk over every entry of its operand
attribute [local irreducible] multiReduction

/-- Pixel `(h, w)` of a block with channel `k` put back on the channel axis is entry `(0, k, h, w)`. -/
theorem lift_channel (h w : Fin 512) (k : Fin 3) :
    reduces_S1x3x512x512_S1x512x512.lift (ix3 0 h w) k = ix4 0 k h w := by
  funext a
  apply Fin.ext
  match a with
  | ⟨0, _⟩ => rfl
  | ⟨1, _⟩ => rfl
  | ⟨2, _⟩ => rfl
  | ⟨3, _⟩ => rfl

/-- The channel maximum at a pixel is the fold of `max` from `-inf` over the pixel's three channel values. -/
theorem chanMax_apply (x : Vec Ideal S1x3x512x512 .f32) (h w : Fin 512) :
    multiReduction (F := Ideal) .maximumf [1] S1x512x512 x 0xFF800000#32 reduces_S1x3x512x512_S1x512x512 (.inl rfl) rfl (ix3 0 h w)
      = Finset.univ.fold max (Ideal.ofBits .f32 0xFF800000#32) (fun c : Fin 3 => x (ix4 0 c h w)) := by
  refine (Ideal.multiReduction_maximumf_single x _ reduces_S1x3x512x512_S1x512x512 _ _ (ix3 0 h w)).trans ?_
  show (Finset.univ : Finset (Fin 3)).fold max (Ideal.ofBits .f32 0xFF800000#32)
    (fun k => x (reduces_S1x3x512x512_S1x512x512.lift (ix3 0 h w) k)) = _
  exact congrArg (fun f : Fin 3 → EReal => Finset.univ.fold max (Ideal.ofBits .f32 0xFF800000#32) f)
    (funext fun k => congrArg x (lift_channel h w k))

/-- The channel minimum likewise, from `+inf`. -/
theorem chanMin_apply (x : Vec Ideal S1x3x512x512 .f32) (h w : Fin 512) :
    multiReduction (F := Ideal) .minimumf [1] S1x512x512 x 0x7F800000#32 reduces_S1x3x512x512_S1x512x512 (.inl rfl) rfl (ix3 0 h w)
      = Finset.univ.fold min (Ideal.ofBits .f32 0x7F800000#32) (fun c : Fin 3 => x (ix4 0 c h w)) := by
  refine (multiReduction_minimumf_eq_fold (F := Ideal) (φ := .f32) x 0x7F800000#32 reduces_S1x3x512x512_S1x512x512
    (.inl rfl) rfl (ix3 0 h w)).trans ?_
  refine (reduces_S1x3x512x512_S1x512x512.fold_filter_drop_single (FloatOps.minimumf (F := Ideal) (φ := .f32))
    (FloatOps.ofBits (F := Ideal) .f32 0x7F800000#32) x (ix3 0 h w)).trans ?_
  show (Finset.univ : Finset (Fin 3)).fold min (Ideal.ofBits .f32 0x7F800000#32)
    (fun k => x (reduces_S1x3x512x512_S1x512x512.lift (ix3 0 h w) k)) = _
  exact congrArg (fun f : Fin 3 → EReal => Finset.univ.fold min (Ideal.ofBits .f32 0x7F800000#32) f)
    (funext fun k => congrArg x (lift_channel h w k))

/-- The body's per-pixel arithmetic over ANY two planes standing for the channel maximum and minimum: what the
    payload is once its two reductions are named. -/
def satForm (M N : FVec Ideal S1x512x512 .f32) : FVec Ideal S1x512x512 .f32 :=
  select (cmpf .ogt M (broadcast S1x512x512 (Scalar.ofBits .f32 0xBF800000#32)))
    (divf (subf M N)
      (select (cmpf .ogt M (broadcast S1x512x512 (Scalar.ofBits .f32 0xBF800000#32)))
        (addf M (broadcast S1x512x512 (Scalar.ofBits .f32 0x3F800000#32)))
        (broadcast S1x512x512 (Scalar.ofBits .f32 0x3F800000#32))))
    (broadcast S1x512x512 (Scalar.ofBits .f32 0x00000000#32))

/-- Read at a pixel it is the kernel's answer from the two planes' values there (every operation is pointwise). -/
theorem satForm_apply (M N : FVec Ideal S1x512x512 .f32) (j : S1x512x512.Idx) :
    satForm M N j = Pixel.ofMaxMin (M j) (N j) := rfl

/-- The first input block's per-pixel payload is that form of the block's channel maximum and minimum, -/
theorem pay3_eq (x : Vec Ideal S1x3x512x512 .f32) :
    k0_pay3 (F := Ideal) x
      = satForm (multiReduction (F := Ideal) .maximumf [1] S1x512x512 x 0xFF800000#32 reduces_S1x3x512x512_S1x512x512 (.inl rfl) rfl)
          (multiReduction (F := Ideal) .minimumf [1] S1x512x512 x 0x7F800000#32 reduces_S1x3x512x512_S1x512x512 (.inl rfl) rfl) := rfl

/-- and the second input block's likewise. -/
theorem pay4_eq (x : Vec Ideal S1x3x512x512 .f32) :
    k0_pay4 (F := Ideal) x
      = satForm (multiReduction (F := Ideal) .maximumf [1] S1x512x512 x 0xFF800000#32 reduces_S1x3x512x512_S1x512x512 (.inl rfl) rfl)
          (multiReduction (F := Ideal) .minimumf [1] S1x512x512 x 0x7F800000#32 reduces_S1x3x512x512_S1x512x512 (.inl rfl) rfl) := rfl

/-- THE PER-PIXEL PAYLOAD of the first input block is the pixel's saturation, -/
theorem sat_block0 (x : Vec Ideal S1x3x512x512 .f32) (h w : Fin 512) :
    k0_pay3 (F := Ideal) x (ix3 0 h w) = Pixel.sat fun c => x (ix4 0 c h w) := by
  rw [pay3_eq, satForm_apply, chanMax_apply, chanMin_apply]
  rfl

/-- and of the second input block the same. -/
theorem sat_block1 (x : Vec Ideal S1x3x512x512 .f32) (h w : Fin 512) :
    k0_pay4 (F := Ideal) x (ix3 0 h w) = Pixel.sat fun c => x (ix4 0 c h w) := by
  rw [pay4_eq, satForm_apply, chanMax_apply, chanMin_apply]
  rfl

/-- A row of the plane, summed along its lanes. -/
theorem rowSum_apply (v : FVec Ideal S1x512x512 .f32) (h : Fin 512) :
    multiReduction (F := Ideal) .add [2] S1x512 v 0x00000000#32 reduces_S1x512x512_S1x512 (.inl rfl) rfl (ix2 0 h)
      = ∑ w : Fin 512, v (ix3 0 h w) := by
  refine (Ideal.multiReduction_add_single v _ reduces_S1x512x512_S1x512 _ _ (ix2 0 h)).trans ?_
  show ∑ w : Fin 512, v (reduces_S1x512x512_S1x512.lift (ix2 0 h) w) = _
  refine Finset.sum_congr rfl fun w _ => congrArg v (funext fun a => Fin.ext ?_)
  match a with
  | ⟨0, _⟩ => rfl
  | ⟨1, _⟩ => rfl
  | ⟨2, _⟩ => rfl

/-- The row sums laid out as a column: entry `(0, h, 0)` is row sum `h`. -/
theorem castCol_apply {α : Type} (u : S1x512.Idx → α) (h : Fin 512) :
    shapeCast S1x512x1 u shapeCasts_S1x512_S1x512x1 (ix3 0 h 0) = u (ix2 0 h) :=
  shapeCast_apply u _ _ _ (by
    rw [Shape.rowMajor_val_two, Shape.rowMajor_val_three]
    show 0 * 512 + h.val = (0 * 512 + h.val) * 1 + 0
    omega)

/-- The column summed. -/
theorem colSum_apply (v : FVec Ideal S1x512x1 .f32) :
    multiReduction (F := Ideal) .add [1] S1x1 v 0x00000000#32 reduces_S1x512x1_S1x1 (.inl rfl) rfl (ix2 0 0)
      = ∑ h : Fin 512, v (ix3 0 h 0) := by
  refine (Ideal.multiReduction_add_single v _ reduces_S1x512x1_S1x1 _ _ (ix2 0 0)).trans ?_
  show ∑ h : Fin 512, v (reduces_S1x512x1_S1x1.lift (ix2 0 0) h) = _
  refine Finset.sum_congr rfl fun h _ => congrArg v (funext fun a => Fin.ext ?_)
  match a with
  | ⟨0, _⟩ => rfl
  | ⟨1, _⟩ => rfl
  | ⟨2, _⟩ => rfl

/-- The one index of the slot's shape. -/
theorem idx_slot (i : S1x1x1.Idx) : i = ix3 0 0 0 := by
  funext a
  apply Fin.ext
  match a with
  | ⟨0, _⟩ => exact Nat.lt_one_iff.mp (i 0).isLt
  | ⟨1, _⟩ => exact Nat.lt_one_iff.mp (i 1).isLt
  | ⟨2, _⟩ => exact Nat.lt_one_iff.mp (i 2).isLt

/-- A one-entry matrix read as a one-entry block: the entry. -/
theorem castUnit_apply {α : Type} (u : S1x1.Idx → α) (i : S1x1x1.Idx) :
    shapeCast S1x1x1 u shapeCasts_S1x1_S1x1x1 i = u (ix2 0 0) := by
  rw [idx_slot i]
  exact shapeCast_apply u _ _ _ (by
    rw [Shape.rowMajor_val_two, Shape.rowMajor_val_three]
    show 0 * 1 + 0 = (0 * 1 + 0) * 1 + 0
    omega)

/-- The sum over the one entry of the leading axis. -/
theorem unitSum_apply (v : FVec Ideal S1x1x1 .f32) :
    multiReduction (F := Ideal) .add [0] S1x1 v 0x00000000#32 reduces_S1x1x1_S1x1 (.inl rfl) rfl (ix2 0 0)
      = v (ix3 0 0 0) := by
  refine (Ideal.multiReduction_add_single v _ reduces_S1x1x1_S1x1 _ _ (ix2 0 0)).trans ?_
  show ∑ k : Fin 1, v (reduces_S1x1x1_S1x1.lift (ix2 0 0) k) = _
  rw [Fin.sum_univ_one]
  refine congrArg v (funext fun a => Fin.ext ?_)
  match a with
  | ⟨0, _⟩ => rfl
  | ⟨1, _⟩ => rfl
  | ⟨2, _⟩ => rfl

/-- THE SLOT'S PAYLOAD: the value the slot held plus the sum over the pixels of the absolute difference of the two
    saturation planes. -/
theorem slot_apply (p q : FVec Ideal S1x512x512 .f32) (xo : Vec Ideal S1x1x1 .f32) (i : S1x1x1.Idx) :
    k0_pay1 (F := Ideal) p q xo i
      = xo i + ∑ h : Fin 512, ∑ w : Fin 512, max (p (ix3 0 h w) - q (ix3 0 h w)) (-(p (ix3 0 h w) - q (ix3 0 h w))) := by
  unfold k0_pay1
  show shapeCast S1x1x1 xo shapeCasts_S1x1x1_S1x1x1 i + shapeCast S1x1x1 _ shapeCasts_S1x1_S1x1x1 i = _
  rw [shapeCast_self, castUnit_apply, unitSum_apply, castUnit_apply, colSum_apply]
  refine congrArg (xo i + ·) (Finset.sum_congr rfl fun h _ => ?_)
  rw [castCol_apply, rowSum_apply]
  rfl

end Cert.KernelIdeal.Body

end
-- ==== Proof.Loss.lean ====
/-
  The two losses as functions of the two argument arrays, and that they are equal on finite arrays.

  Write `d(n, h, w)` for the absolute difference of the two arrays' saturations at pixel `(h, w)` of image `n`.
  The kernel keeps two running sums: slot `p` starts from zero and receives, one image at a time, the sum of `d` over
  the pixels of images `16 p, …, 16 p + 15`; the two slots are then added, multiplied by one and divided by the pixel
  count. The reference adds `d` over all `32 · 512 · 512` pixels at once, divides by the same count and multiplies
  by one. Addition of extended reals is commutative and associative, so the thirty-two image sums may be grouped
  sixteen and sixteen; the pixel terms themselves agree by the one-pixel law, which is where finiteness is used.
-/
import Idealize.ShloMosaic.Lib.ValueIdx
import proofs.«146994_j60035052863713_1_alg».proof.Proof.Pixel

noncomputable section

namespace Cert.Loss

open Idealize.ShloMosaic Idealize.ShloMosaic.ValueIdx

/-- A rank-3 index set is the product of its three coordinate ranges, -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The argument arrays' shape, the per-pixel shape, and the kernel's two-slot output shape. -/
abbrev SIn : Shape := ⟨4, ![32, 3, 512, 512]⟩
abbrev SPix : Shape := ⟨3, ![32, 512, 512]⟩
abbrev SOut : Shape := ⟨3, ![2, 1, 1]⟩

/-- The kernel's absolute saturation difference at pixel `(h, w)` of image `n`. -/
def diff (A B : SIn.Idx → EReal) (n : Fin 32) (h w : Fin 512) : EReal :=
  max (Pixel.sat (fun c => A (ix4 n c h w)) - Pixel.sat (fun c => B (ix4 n c h w)))
    (-(Pixel.sat (fun c => A (ix4 n c h w)) - Pixel.sat (fun c => B (ix4 n c h w))))

/-- The reference's. -/
def diffRef (A B : SIn.Idx → EReal) (n : Fin 32) (h w : Fin 512) : EReal :=
  max (Pixel.satRef (fun c => A (ix4 n c h w)) - Pixel.satRef (fun c => B (ix4 n c h w)))
    (-(Pixel.satRef (fun c => A (ix4 n c h w)) - Pixel.satRef (fun c => B (ix4 n c h w))))

/-- One image's sum of differences (zero past the last image, so that it is a function of every natural). -/
def imageSum (A B : SIn.Idx → EReal) (n : ℕ) : EReal :=
  if hn : n < 32 then ∑ h : Fin 512, ∑ w : Fin 512, diff A B ⟨n, hn⟩ h w else 0

/-- The kernel's output array: slot `p` is zero plus the sums of images `16 p … 16 p + 15`. -/
def slots (A B : SIn.Idx → EReal) : SOut.Idx → EReal :=
  fun i => Ideal.ofBits .f32 0x00000000#32 + ∑ s ∈ Finset.range 16, imageSum A B (16 * (i 0).val + s)

/-- The kernel's loss: the slots added from zero, times one, over the pixel count. -/
def kernelLoss (A B : SIn.Idx → EReal) : EReal :=
  Ideal.div (Ideal.ofBits .f32 0x3F800000#32 * (Ideal.ofBits .f32 0x00000000#32 + ∑ i : SOut.Idx, slots A B i))
    (Ideal.ofBits .f32 0x4B000000#32)

/-- The reference's loss: every pixel's difference added from zero, over the pixel count, times one. -/
def refLoss (A B : SIn.Idx → EReal) : EReal :=
  Ideal.ofBits .f32 0x3F800000#32 *
    Ideal.div (Ideal.ofBits .f32 0x00000000#32 + ∑ j : SPix.Idx, diffRef A B (j 0) (j 1) (j 2))
      (Ideal.ofBits .f32 0x4B000000#32)

/-- On finite arrays the two differences agree pixel by pixel. -/
theorem diffRef_eq_diff (A B : SIn.Idx → EReal) (hA : ∀ i, ∃ r : ℝ, A i = (r : EReal))
    (hB : ∀ i, ∃ r : ℝ, B i = (r : EReal)) (n : Fin 32) (h w : Fin 512) : diffRef A B n h w = diff A B n h w := by
  unfold diffRef diff
  rw [Pixel.satRef_eq_sat _ fun c => hA _, Pixel.satRef_eq_sat _ fun c => hB _]

/-- Thirty-two image sums are the first sixteen and the next sixteen. -/
theorem sum_images (g : ℕ → EReal) :
    ∑ n : Fin 32, g n.val = (∑ s ∈ Finset.range 16, g (16 * 0 + s)) + ∑ s ∈ Finset.range 16, g (16 * 1 + s) := by
  rw [Fin.sum_univ_eq_sum_range g 32, show (32 : ℕ) = 16 + 16 from rfl, Finset.sum_range_add]
  simp only [Nat.mul_zero, Nat.zero_add, Nat.mul_one]

/-- ON FINITE ARRAYS the kernel's loss is the reference's. -/
theorem kernelLoss_eq_refLoss (A B : SIn.Idx → EReal) (hA : ∀ i, ∃ r : ℝ, A i = (r : EReal))
    (hB : ∀ i, ∃ r : ℝ, B i = (r : EReal)) : kernelLoss A B = refLoss A B := by
  unfold kernelLoss refLoss
  rw [Consts.ofBits_one, one_mul, one_mul, Consts.ofBits_zero, zero_add, zero_add]
  congr 1
  rw [sum_idx3, sum_idx3, Fin.sum_univ_two]
  simp only [Fin.sum_univ_one]
  unfold slots
  rw [Consts.ofBits_zero, zero_add, zero_add]
  have himg : ∀ n : Fin 32, (∑ b : Fin 512, ∑ c : Fin 512, diffRef A B ((ix3 n b c : SPix.Idx) 0) ((ix3 n b c : SPix.Idx) 1) ((ix3 n b c : SPix.Idx) 2))
      = imageSum A B n.val := fun n => by
    unfold imageSum
    rw [dif_pos n.isLt]
    exact Finset.sum_congr rfl fun b _ => Finset.sum_congr rfl fun c _ => diffRef_eq_diff A B hA hB n b c
  rw [Finset.sum_congr rfl fun n _ => himg n, sum_images (imageSum A B)]
  rfl

end Cert.Loss

end
-- ==== Proof.KernelValue.lean ====
/-
  What the idealized kernel leaves in its result, as a function of the two argument arrays.

  The grid's thirty-two points are the thirty-two images, in order; point `t` stages image `t` of each argument, and the
  output block at point `t` is slot `t / 16`. A slot is reset at the first image of its group, receives one image's sum
  of differences at every point, and is written back once, after the last image of the group. So slot `p` of the output
  array ends at zero plus the sums of images `16 p … 16 p + 15`, and the three host operations after the region add the
  two slots from zero, multiply by one and divide by the pixel count.
-/
import proofs.«146994_j60035052863713_1_alg».proof.Proof.Gen.KernelIdeal.Frame
import proofs.«146994_j60035052863713_1_alg».proof.Proof.Pieces
import proofs.«146994_j60035052863713_1_alg».proof.Proof.Payload
import proofs.«146994_j60035052863713_1_alg».proof.Proof.Loss
import Idealize.ShloMosaic.Lib.Pipeline.Value
import Idealize.ShloMosaic.Lib.StableHlo.Run

noncomputable section

open Idealize.ShloMosaic Idealize.ShloMosaic.TcCoe Idealize.ShloMosaic.ValueIdx Idealize.SL.Sem
open Idealize.ShloMosaic.Pipeline (Dat)

namespace Cert.KernelIdeal.Body

open Cert.KernelIdeal Cert.KernelIdeal.Gen

variable (m : (ℓ : Loc nD τ sig) → Buf (Elt Ideal) ℓ) (ρ : Dev nD → PrngReg)

/-- The two argument arrays as the region finds them, and their blocks at a point, at their literal types. -/
abbrev arrA (c : Dev nD) : Vec Ideal S32x3x512x512 .f32 := V m c main_arg0
abbrev arrB (c : Dev nD) : Vec Ideal S32x3x512x512 .f32 := V m c main_arg1
abbrev blkA (c : Dev nD) (t : Fin cfg0.N) : Vec Ideal S1x3x512x512 .f32 := iblk m c 0 t
abbrev blkB (c : Dev nD) (t : Fin cfg0.N) : Vec Ideal S1x3x512x512 .f32 := iblk m c 1 t

theorem lt32 (t : Fin cfg0.N) : t.val < 32 := lt_of_lt_of_eq t.isLt (show cfg0.N = 32 from N_0)

/-- Point `t` stages image `t` of each argument, whole; its output block is slot `t / 16`. -/
theorem idxA : ∀ t : Fin cfg0.N, win0_0.index t (0 : Fin 4) = t.val ∧ win0_0.index t (1 : Fin 4) = 0
      ∧ win0_0.index t (2 : Fin 4) = 0 ∧ win0_0.index t (3 : Fin 4) = 0 :=
  (by decide +kernel : ∀ t : Fin grid0.N, win0_0.index t (0 : Fin 4) = t.val ∧ win0_0.index t (1 : Fin 4) = 0
      ∧ win0_0.index t (2 : Fin 4) = 0 ∧ win0_0.index t (3 : Fin 4) = 0)
theorem idxB : ∀ t : Fin cfg0.N, win0_1.index t (0 : Fin 4) = t.val ∧ win0_1.index t (1 : Fin 4) = 0
      ∧ win0_1.index t (2 : Fin 4) = 0 ∧ win0_1.index t (3 : Fin 4) = 0 :=
  (by decide +kernel : ∀ t : Fin grid0.N, win0_1.index t (0 : Fin 4) = t.val ∧ win0_1.index t (1 : Fin 4) = 0
      ∧ win0_1.index t (2 : Fin 4) = 0 ∧ win0_1.index t (3 : Fin 4) = 0)
theorem idxO : ∀ t : Fin cfg0.N, win0_2.index t (0 : Fin 3) = t.val / 16 ∧ win0_2.index t (1 : Fin 3) = 0
      ∧ win0_2.index t (2 : Fin 3) = 0 :=
  (by decide +kernel : ∀ t : Fin grid0.N, win0_2.index t (0 : Fin 3) = t.val / 16 ∧ win0_2.index t (1 : Fin 3) = 0
      ∧ win0_2.index t (2 : Fin 3) = 0)

/-- Entry `(0, k, h, w)` of the first argument's block at point `t` is entry `(t, k, h, w)` of the argument, -/
theorem blkA_apply (c : Dev nD) (t : Fin cfg0.N) (k : Fin 3) (h w : Fin 512) :
    blkA m c t (ix4 0 k h w) = arrA m c (ix4 ⟨t.val, lt32 t⟩ k h w) := by
  show iblk m c 0 t (ix4 0 k h w) = _
  unfold iblk
  rw [View.read_apply]
  show V m c main_arg0 _ = V m c main_arg0 _
  refine congrArg (V m c main_arg0) (funext fun a => Fin.ext ?_)
  match a with
  | ⟨0, _⟩ => show win0_0.index t (0 : Fin 4) * 1 + 1 * 0 = t.val; rw [(idxA t).1]; omega
  | ⟨1, _⟩ => show win0_0.index t (1 : Fin 4) * 3 + 1 * k.val = k.val; rw [(idxA t).2.1]; omega
  | ⟨2, _⟩ => show win0_0.index t (2 : Fin 4) * 512 + 1 * h.val = h.val; rw [(idxA t).2.2.1]; omega
  | ⟨3, _⟩ => show win0_0.index t (3 : Fin 4) * 512 + 1 * w.val = w.val; rw [(idxA t).2.2.2]; omega

/-- and the second argument's likewise. -/
theorem blkB_apply (c : Dev nD) (t : Fin cfg0.N) (k : Fin 3) (h w : Fin 512) :
    blkB m c t (ix4 0 k h w) = arrB m c (ix4 ⟨t.val, lt32 t⟩ k h w) := by
  show iblk m c 1 t (ix4 0 k h w) = _
  unfold iblk
  rw [View.read_apply]
  show V m c main_arg1 _ = V m c main_arg1 _
  refine congrArg (V m c main_arg1) (funext fun a => Fin.ext ?_)
  match a with
  | ⟨0, _⟩ => show win0_1.index t (0 : Fin 4) * 1 + 1 * 0 = t.val; rw [(idxB t).1]; omega
  | ⟨1, _⟩ => show win0_1.index t (1 : Fin 4) * 3 + 1 * k.val = k.val; rw [(idxB t).2.1]; omega
  | ⟨2, _⟩ => show win0_1.index t (2 : Fin 4) * 512 + 1 * h.val = h.val; rw [(idxB t).2.2.1]; omega
  | ⟨3, _⟩ => show win0_1.index t (3 : Fin 4) * 512 + 1 * w.val = w.val; rw [(idxB t).2.2.2]; omega

/-- What the body at point `n` makes of a slot holding `acc`. -/
def stepAt (c : Dev nD) (n : ℕ) (hn : n < cfg0.N) (acc : Vec Ideal S1x1x1 .f32) : Vec Ideal S1x1x1 .f32 :=
  k0_pay1 (k0_pay3 (blkA m c ⟨n, hn⟩)) (k0_pay4 (blkB m c ⟨n, hn⟩)) acc

/-- What it makes of a slot it has just reset. -/
def resetAt (c : Dev nD) (n : ℕ) (hn : n < cfg0.N) : Vec Ideal S1x1x1 .f32 :=
  stepAt m c n hn (k0_pay2 (F := Ideal))

/-- A POINT ADDS ITS IMAGE'S SUM: the slot's entry after point `n` is its entry before plus the sum over the pixels of
    image `n` of the absolute difference of the two arguments' saturations. -/
theorem stepAt_apply (c : Dev nD) (n : ℕ) (hn : n < cfg0.N) (acc : Vec Ideal S1x1x1 .f32) (i : S1x1x1.Idx) :
    stepAt m c n hn acc i = acc i + Loss.imageSum (arrA m c) (arrB m c) n := by
  unfold stepAt
  refine (slot_apply _ _ _ _).trans (congrArg (acc i + ·) ?_)
  unfold Loss.imageSum
  rw [dif_pos (lt32 ⟨n, hn⟩)]
  refine Finset.sum_congr rfl fun h _ => Finset.sum_congr rfl fun w _ => ?_
  rw [sat_block0, sat_block1]
  unfold Loss.diff
  simp only [blkA_apply, blkB_apply]

/-- The slot after a group's first point, and after each later one, in the running contents' own recursion. -/
theorem outs_reset (c : Dev nD) (n : ℕ) (hn : n < cfg0.N) (h0 : n % 16 = 0) : outsAt0 m c n hn = resetAt m c n hn :=
  (outsAt0_A m c ⟨n, hn⟩ h0).trans
    (out_first c (grid0.coords ⟨n, hn⟩) (ms0_0 ⟨n, hn⟩) (hs0_0 ⟨n, hn⟩) (ms0_1 ⟨n, hn⟩) (hs0_1 ⟨n, hn⟩) (ms0_2 ⟨n, hn⟩)
      (hs0_2 ⟨n, hn⟩) ((hcond0_0 ⟨n, hn⟩).mpr h0) (iblk m c 0 ⟨n, hn⟩) (iblk m c 1 ⟨n, hn⟩))

theorem outs_step (c : Dev nD) (n : ℕ) (hn : n + 1 < cfg0.N) (h0 : ¬(n + 1) % 16 = 0) :
    outsAt0 m c (n + 1) hn = stepAt m c (n + 1) hn (outsAt0 m c n (Nat.lt_of_succ_lt hn)) :=
  (outsAt0_B m c ⟨n + 1, hn⟩ h0).trans
    (out_later c (grid0.coords ⟨n + 1, hn⟩) (ms0_0 ⟨n + 1, hn⟩) (hs0_0 ⟨n + 1, hn⟩) (ms0_1 ⟨n + 1, hn⟩) (hs0_1 ⟨n + 1, hn⟩)
      (ms0_2 ⟨n + 1, hn⟩) (hs0_2 ⟨n + 1, hn⟩) (fun h => h0 ((hcond0_0 ⟨n + 1, hn⟩).mp h)) (iblk m c 0 ⟨n + 1, hn⟩)
      (iblk m c 1 ⟨n + 1, hn⟩) (outsAt0 m c n (Nat.lt_of_succ_lt hn)))

/-- AT A GROUP'S LAST POINT the slot's entry is zero plus the group's sixteen image sums. -/
theorem outs_last (c : Dev nD) (t : Fin cfg0.N) (hf : t.val % 16 = 15) (i : S1x1x1.Idx) :
    outsAt0 m c t.val t.isLt i
      = Ideal.ofBits .f32 0x00000000#32 + ∑ s ∈ Finset.range 16, Loss.imageSum (arrA m c) (arrB m c) (16 * (t.val / 16) + s) := by
  have h' : 16 * (t.val / 16) + t.val % 16 < cfg0.N := by rw [Nat.div_add_mod]; exact t.isLt
  rw [Pipeline.eq_accAt_of_mod (fun n hn => outsAt0 m c n hn) 16 (resetAt m c) (stepAt m c) (outs_reset m c) (outs_step m c)
    (by decide) t.val t.isLt h']
  have hsum := Pipeline.accAt_add_apply (resetAt m c) (stepAt m c) (fun _ => Ideal.ofBits .f32 0x00000000#32)
    (fun n _ => Loss.imageSum (arrA m c) (arrB m c) n) (16 * (t.val / 16)) 15
    (fun h j => stepAt_apply m c _ h _ j) (fun n h acc j _ _ => stepAt_apply m c n h acc j) (t.val % 16) (by omega) h' i
  rw [hsum, hf]

/-- The output array after the region: the two slots. -/
abbrev slotsOf (c : Dev nD) : Buf (Elt Ideal) ((c.tc : Thread nD τ).loc main_v0) :=
  Loss.slots (arrA m c) (arrB m c)

/-- The write-back at a group's last point writes that group's slot. -/
theorem flushed_eq (c : Dev nD) (t : Fin cfg0.N) (hf : (cfg0.win 2).flush t = true) :
    (dats m 0 c).flushed 2 t = ((cfg0.win 2).blk t).view.read (Elt Ideal) (slotsOf m c) := by
  have h15 : t.val % 16 = 15 := (flush0_2 t).mp hf
  funext y
  show (dats m 0 c).after 2 t y = _
  rw [after0_2, View.read_apply, outs_last m c t h15]
  show _ = Ideal.ofBits .f32 0x00000000#32 + ∑ s ∈ Finset.range 16,
    Loss.imageSum (arrA m c) (arrB m c) (16 * ((((cfg0.win 2).blk t).view.emb y) (0 : Fin 3)).val + s)
  have h0 : (y (0 : Fin 3)).val < 1 := (y (0 : Fin 3)).isLt
  have he : ((((cfg0.win 2).blk t).view.emb y) (0 : Fin 3)).val = t.val / 16 := by
    show win0_2.index t (0 : Fin 3) * 1 + 1 * (y (0 : Fin 3)).val = _
    rw [(idxO t).1]; omega
  rw [he]

/-- Every slot is written back by its group's last point. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have hN : cfg0.N = 32 := N_0
  have hi0 : (i (0 : Fin 3)).val < 2 := (i (0 : Fin 3)).isLt
  have hi1 : (i (1 : Fin 3)).val < 1 := (i (1 : Fin 3)).isLt
  have hi2 : (i (2 : Fin 3)).val < 1 := (i (2 : Fin 3)).isLt
  have ht : 16 * (i (0 : Fin 3)).val + 15 < cfg0.N := by omega
  have hq : (16 * (i (0 : Fin 3)).val + 15) / 16 = (i (0 : Fin 3)).val := by omega
  refine ⟨⟨16 * (i (0 : Fin 3)).val + 15, ht⟩, (flush0_2 _).mpr (by show (16 * (i (0 : Fin 3)).val + 15) % 16 = 15; omega), ?_⟩
  show i ∈ ((View.whole main_v0).slice (win0_2.rect ⟨16 * (i (0 : Fin 3)).val + 15, ht⟩)).set
  rw [View.set_slice_whole, Rect.mem_set_unit]
  intro a
  match a with
  | ⟨0, _⟩ =>
    show win0_2.index ⟨16 * (i (0 : Fin 3)).val + 15, ht⟩ (0 : Fin 3) * 1 ≤ (i (0 : Fin 3)).val
      ∧ (i (0 : Fin 3)).val < win0_2.index ⟨16 * (i (0 : Fin 3)).val + 15, ht⟩ (0 : Fin 3) * 1 + 1
    rw [(idxO ⟨16 * (i (0 : Fin 3)).val + 15, ht⟩).1]
    show (16 * (i (0 : Fin 3)).val + 15) / 16 * 1 ≤ (i (0 : Fin 3)).val
      ∧ (i (0 : Fin 3)).val < (16 * (i (0 : Fin 3)).val + 15) / 16 * 1 + 1
    rw [hq]; omega
  | ⟨1, _⟩ =>
    show win0_2.index ⟨16 * (i (0 : Fin 3)).val + 15, ht⟩ (1 : Fin 3) * 1 ≤ (i (1 : Fin 3)).val
      ∧ (i (1 : Fin 3)).val < win0_2.index ⟨16 * (i (0 : Fin 3)).val + 15, ht⟩ (1 : Fin 3) * 1 + 1
    rw [(idxO ⟨16 * (i (0 : Fin 3)).val + 15, ht⟩).2.1]; omega
  | ⟨2, _⟩ =>
    show win0_2.index ⟨16 * (i (0 : Fin 3)).val + 15, ht⟩ (2 : Fin 3) * 1 ≤ (i (2 : Fin 3)).val
      ∧ (i (2 : Fin 3)).val < win0_2.index ⟨16 * (i (0 : Fin 3)).val + 15, ht⟩ (2 : Fin 3) * 1 + 1
    rw [(idxO ⟨16 * (i (0 : Fin 3)).val + 15, ht⟩).2.2]; omega

/-- So the output array ends holding the two slots. -/
theorem final_slots (c : Dev nD) : (dats m 0 c).arrAt 2 cfg0.N = slotsOf m c :=
  (dats m 0 c).arrAt_eq_of_cover 2 (slotsOf m c) (flushed_eq m c) (cover c)

end Cert.KernelIdeal.Body

end
-- ==== Proof.KernelRun.lean ====
/-
  The idealized kernel's run, with its result named: the loss of the two argument arrays.

  After the region the output array holds the two slots; the host then adds them from zero, multiplies the sum by one
  and divides by the pixel count. Read at the result's one index that is the kernel's loss.
-/
import proofs.«146994_j60035052863713_1_alg».proof.Proof.KernelValue

noncomputable section

open Idealize.ShloMosaic Idealize.ShloMosaic.TcCoe Idealize.ShloMosaic.ValueIdx Idealize.SL.Sem
open Idealize.ShloMosaic.Pipeline (Dat)

namespace Cert.KernelIdeal.Body

open Cert.KernelIdeal Cert.KernelIdeal.Gen

/-- The host's sum of a two-slot array from zero is zero plus the sum of its entries. -/
theorem sum_slots (s : FVec Ideal S2x1x1 .f32) (i : S_.Idx) :
    Host.reduceAdd s (constant (F := Ideal) S_ .f32 0x00000000#32) reducesTo_S2x1x1_S_d0_1_2 h_S_ i
      = Ideal.ofBits .f32 0x00000000#32 + ∑ j : S2x1x1.Idx, s j := by
  simp only [Host.reduceAdd, Ideal.hostReduceAdd_def]
  exact Ideal.hostReduceAdd_total reducesTo_S2x1x1_S_d0_1_2 (fun b => b.elim0) s _ i

/-- The three host operations after the region, of ANY slot array, read at the result's index. -/
theorem tail_apply (s : FVec Ideal S2x1x1 .f32) (i : S_.Idx) :
    Host.divf (mulf (constant (F := Ideal) S_ .f32 0x3F800000#32)
        (Host.reduceAdd s (constant (F := Ideal) S_ .f32 0x00000000#32) reducesTo_S2x1x1_S_d0_1_2 h_S_))
      (constant (F := Ideal) S_ .f32 0x4B000000#32) i
      = Ideal.div (Ideal.ofBits .f32 0x3F800000#32 * (Ideal.ofBits .f32 0x00000000#32 + ∑ j : S2x1x1.Idx, s j))
          (Ideal.ofBits .f32 0x4B000000#32) := by
  show Ideal.div (Ideal.ofBits .f32 0x3F800000#32
      * Host.reduceAdd s (constant (F := Ideal) S_ .f32 0x00000000#32) reducesTo_S2x1x1_S_d0_1_2 h_S_ i)
    (Ideal.ofBits .f32 0x4B000000#32) = _
  rw [sum_slots]

variable (m : (ℓ : Loc nD τ sig) → Buf (Elt Ideal) ℓ) (ρ : Dev nD → PrngReg)

/-- The result buffer is no array of the pipeline: the region passes it by and the host lines after it write it. -/
theorem result_rest : main_v3 ∈ Pipeline.restRefs sig spec0 := Pipeline.mem_restRefs_of main_v3 rfl (by decide)

/-- What the host lines leave in the result buffer: the kernel's loss of the two argument arrays. -/
theorem tail_eq (c : Dev nD) :
    Pipeline.afterTail₀ cfgs (dats m) 0 (V0 m) [hostOps1] c main_v3
      = fun _ => Loss.kernelLoss (arrA m c) (arrB m c) := by
  have hw : Pipeline.withArrays spec0 c (V0 m c) (fun w => (dats m 0 c).arrAt w cfg0.N) (Proc.devRef .tc main_v0)
      = slotsOf m c :=
    (Pipeline.withArrays_arr spec0 launch0.win.arr_inj c _ _ 2).trans (final_slots m c)
  unfold Pipeline.afterTail₀
  show StableHlo.after hostOps1 _ (Proc.devRef .tc main_v3) = _
  after_results
  rw [hw]
  funext i
  exact tail_apply (slotsOf m c) i

/-- THE RUN: every weakly fair execution of the idealized kernel terminates with its result at the kernel's loss of
    the argument arrays, and the arguments unchanged. -/
theorem run : θ_run defs (onTc (τ := τ) (main (F := Ideal))) ⟨m, fun _ => 0, ρ⟩ fun r => ∀ c : Dev nD,
      r.2.mem ((c.tc : Thread nD τ).loc main_v3) = (fun _ => Loss.kernelLoss (arrA m c) (arrB m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v3 result_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Body

end
-- ==== Proof.RefValue.lean ====
/-
  What the idealized reference computes, as a function of the two argument arrays.

  At pixel `(h, w)` of image `n` the reference's saturation plane of an argument holds the saturation, in the
  reference's form, of the argument's three channel values there: its channel maximum and minimum are folds over the
  three coordinates of the channel axis of the shifted, halved array. The result is the sum of the absolute differences
  of the two planes over every pixel, from zero, divided by the pixel count and multiplied by one.
-/
import proofs.«146994_j60035052863713_1_alg».proof.Proof.RefRead
import proofs.«146994_j60035052863713_1_alg».proof.Proof.Loss
import Idealize.ShloMosaic.Lib.ValueIdx
import Idealize.ShloMosaic.PureOps.Ideal.Laws

noncomputable section

open Idealize.ShloMosaic Idealize.ShloMosaic.TcCoe Idealize.ShloMosaic.ValueIdx

namespace Cert.ReferenceIdeal.RefValue

open Cert.ReferenceIdeal Cert.ReferenceIdeal.Gen Cert.ReferenceIdeal.ReadP

-- a reduction is read through the library's lemmas only: its body is a walk over every entry of its operand
attribute [local irreducible] Host.reduce Host.reduceAdd

/-- The reduction over the channel axis, in the form that names the inserted coordinate. -/
theorem redC : S32x3x512x512.Reduces [1] S32x512x512 := by decide

/-- Pixel `(n, h, w)` with channel `k` put back on the channel axis is entry `(n, k, h, w)`. -/
theorem lift_channel (n : Fin 32) (h w : Fin 512) (k : Fin 3) : redC.lift (ix3 n h w) k = ix4 n k h w := by
  funext a
  apply Fin.ext
  match a with
  | ⟨0, _⟩ => rfl
  | ⟨1, _⟩ => rfl
  | ⟨2, _⟩ => rfl
  | ⟨3, _⟩ => rfl

/-- The first argument shifted by one and halved, at an entry. -/
theorem half0_apply (x : FVec Ideal S32x3x512x512 .f32) (j : S32x3x512x512.Idx) :
    val_main_v3 (F := Ideal) x j = (x j + Ideal.ofBits .f32 0x3F800000#32) * Ideal.ofBits .f32 0x3F000000#32 := by
  rw [val_main_v3_apply, val_main_v1_apply, val_main_v0_apply, val_main_cst_apply, val_main_v2_apply, val_main_cst_0_apply]
  rfl

/-- The second argument likewise. -/
theorem half1_apply (x : FVec Ideal S32x3x512x512 .f32) (j : S32x3x512x512.Idx) :
    val_main_v17 (F := Ideal) x j = (x j + Ideal.ofBits .f32 0x3F800000#32) * Ideal.ofBits .f32 0x3F000000#32 := by
  rw [val_main_v17_apply, val_main_v15_apply, val_main_v14_apply, val_main_cst_7_apply, val_main_v16_apply, val_main_cst_8_apply]
  rfl

/-- The channel maximum and minimum of the first argument's shifted, halved values at a pixel. -/
theorem max0_apply (x : FVec Ideal S32x3x512x512 .f32) (n : Fin 32) (h w : Fin 512) :
    val_main_v4 (F := Ideal) x (ix3 n h w) = Finset.univ.fold max (Ideal.ofBits .f32 0xFF800000#32)
      (fun c : Fin 3 => (x (ix4 n c h w) + Ideal.ofBits .f32 0x3F800000#32) * Ideal.ofBits .f32 0x3F000000#32) := by
  unfold val_main_v4
  refine (Host.reduce_eq_fold_single (FloatOps.maximumf (F := Ideal) (φ := .f32)) (val_main_v3 (F := Ideal) x)
    (val_main_cst_1 (F := Ideal)) reducesTo_S32x3x512x512_S32x512x512_d1 redC h_S_ (ix3 n h w)).trans ?_
  show (Finset.univ : Finset (Fin 3)).fold max (Ideal.ofBits .f32 0xFF800000#32)
    (fun k => val_main_v3 (F := Ideal) x (redC.lift (ix3 n h w) k)) = _
  exact congrArg (fun f : Fin 3 → EReal => Finset.univ.fold max (Ideal.ofBits .f32 0xFF800000#32) f)
    (funext fun k => (congrArg (val_main_v3 (F := Ideal) x) (lift_channel n h w k)).trans (half0_apply x (ix4 n k h w)))

theorem min0_apply (x : FVec Ideal S32x3x512x512 .f32) (n : Fin 32) (h w : Fin 512) :
    val_main_v5 (F := Ideal) x (ix3 n h w) = Finset.univ.fold min (Ideal.ofBits .f32 0x7F800000#32)
      (fun c : Fin 3 => (x (ix4 n c h w) + Ideal.ofBits .f32 0x3F800000#32) * Ideal.ofBits .f32 0x3F000000#32) := by
  unfold val_main_v5
  refine (Host.reduce_eq_fold_single (FloatOps.minimumf (F := Ideal) (φ := .f32)) (val_main_v3 (F := Ideal) x)
    (val_main_cst_2 (F := Ideal)) reducesTo_S32x3x512x512_S32x512x512_d1 redC h_S_ (ix3 n h w)).trans ?_
  show (Finset.univ : Finset (Fin 3)).fold min (Ideal.ofBits .f32 0x7F800000#32)
    (fun k => val_main_v3 (F := Ideal) x (redC.lift (ix3 n h w) k)) = _
  exact congrArg (fun f : Fin 3 → EReal => Finset.univ.fold min (Ideal.ofBits .f32 0x7F800000#32) f)
    (funext fun k => (congrArg (val_main_v3 (F := Ideal) x) (lift_channel n h w k)).trans (half0_apply x (ix4 n k h w)))

/-- The same of the second argument. -/
theorem max1_apply (x : FVec Ideal S32x3x512x512 .f32) (n : Fin 32) (h w : Fin 512) :
    val_main_v18 (F := Ideal) x (ix3 n h w) = Finset.univ.fold max (Ideal.ofBits .f32 0xFF800000#32)
      (fun c : Fin 3 => (x (ix4 n c h w) + Ideal.ofBits .f32 0x3F800000#32) * Ideal.ofBits .f32 0x3F000000#32) := by
  unfold val_main_v18
  refine (Host.reduce_eq_fold_single (FloatOps.maximumf (F := Ideal) (φ := .f32)) (val_main_v17 (F := Ideal) x)
    (val_main_cst_9 (F := Ideal)) reducesTo_S32x3x512x512_S32x512x512_d1 redC h_S_ (ix3 n h w)).trans ?_
  show (Finset.univ : Finset (Fin 3)).fold max (Ideal.ofBits .f32 0xFF800000#32)
    (fun k => val_main_v17 (F := Ideal) x (redC.lift (ix3 n h w) k)) = _
  exact congrArg (fun f : Fin 3 → EReal => Finset.univ.fold max (Ideal.ofBits .f32 0xFF800000#32) f)
    (funext fun k => (congrArg (val_main_v17 (F := Ideal) x) (lift_channel n h w k)).trans (half1_apply x (ix4 n k h w)))

theorem min1_apply (x : FVec Ideal S32x3x512x512 .f32) (n : Fin 32) (h w : Fin 512) :
    val_main_v19 (F := Ideal) x (ix3 n h w) = Finset.univ.fold min (Ideal.ofBits .f32 0x7F800000#32)
      (fun c : Fin 3 => (x (ix4 n c h w) + Ideal.ofBits .f32 0x3F800000#32) * Ideal.ofBits .f32 0x3F000000#32) := by
  unfold val_main_v19
  refine (Host.reduce_eq_fold_single (FloatOps.minimumf (F := Ideal) (φ := .f32)) (val_main_v17 (F := Ideal) x)
    (val_main_cst_10 (F := Ideal)) reducesTo_S32x3x512x512_S32x512x512_d1 redC h_S_ (ix3 n h w)).trans ?_
  show (Finset.univ : Finset (Fin 3)).fold min (Ideal.ofBits .f32 0x7F800000#32)
    (fun k => val_main_v17 (F := Ideal) x (redC.lift (ix3 n h w) k)) = _
  exact congrArg (fun f : Fin 3 → EReal => Finset.univ.fold min (Ideal.ofBits .f32 0x7F800000#32) f)
    (funext fun k => (congrArg (val_main_v17 (F := Ideal) x) (lift_channel n h w k)).trans (half1_apply x (ix4 n k h w)))

/-- THE FIRST ARGUMENT'S SATURATION PLANE at a pixel is the reference's saturation of its three channel values there, -/
theorem sat0_apply (x : FVec Ideal S32x3x512x512 .f32) (n : Fin 32) (h w : Fin 512) :
    val_main_v13 (F := Ideal) x (ix3 n h w) = Pixel.satRef fun c => x (ix4 n c h w) := by
  rw [val_main_v13_apply, val_main_v11_apply, val_main_v12_apply, val_main_v6_apply, val_main_v9_apply, val_main_v8_apply,
    val_main_v10_apply, val_main_cst_5_apply, val_main_v7_apply, val_main_cst_3_apply, val_main_call0_v1_apply,
    val_main_call0_v0_apply, val_main_cst_4_apply, val_main_call1_v1_apply, val_main_call1_v0_apply, val_main_cst_6_apply,
    max0_apply, min0_apply]
  rfl

/-- and the second argument's likewise. -/
theorem sat1_apply (x : FVec Ideal S32x3x512x512 .f32) (n : Fin 32) (h w : Fin 512) :
    val_main_v27 (F := Ideal) x (ix3 n h w) = Pixel.satRef fun c => x (ix4 n c h w) := by
  rw [val_main_v27_apply, val_main_v25_apply, val_main_v26_apply, val_main_v20_apply, val_main_v23_apply, val_main_v22_apply,
    val_main_v24_apply, val_main_cst_13_apply, val_main_v21_apply, val_main_cst_11_apply, val_main_call2_v1_apply,
    val_main_call2_v0_apply, val_main_cst_12_apply, val_main_call3_v1_apply, val_main_call3_v0_apply, val_main_cst_14_apply,
    max1_apply, min1_apply]
  rfl

/-- THE REFERENCE'S RESULT is its loss of the two arguments. -/
theorem result_eq (x0 x1 : FVec Ideal S32x3x512x512 .f32) (i : S_.Idx) :
    val_main_v32 (F := Ideal) x0 x1 i = Loss.refLoss x0 x1 := by
  rw [val_main_v32_apply, val_main_cst_17_apply, val_main_v31_apply, val_main_cst_16_apply, val_main_v30_apply,
    val_main_cst_15_apply]
  unfold Loss.refLoss
  show Ideal.ofBits .f32 0x3F800000#32 * Ideal.div (Ideal.ofBits .f32 0x00000000#32 + ∑ j : S32x512x512.Idx, val_main_v29 (F := Ideal) x0 x1 j)
    (Ideal.ofBits .f32 0x4B000000#32) = _
  refine congrArg (fun s => Ideal.ofBits .f32 0x3F800000#32 * Ideal.div (Ideal.ofBits .f32 0x00000000#32 + s) (Ideal.ofBits .f32 0x4B000000#32))
    (Finset.sum_congr rfl fun j _ => ?_)
  obtain ⟨n, h, w, rfl⟩ : ∃ (n : Fin 32) (h w : Fin 512), j = ix3 n h w := ⟨j 0, j 1, j 2, eq_ix3 j⟩
  rw [val_main_v29_apply, val_main_v28_apply, sat0_apply, sat1_apply]
  rfl

end Cert.ReferenceIdeal.RefValue

end
-- ==== Proof.Finite.lean ====
/-
  What the precondition says: every entry of both argument arrays is a real number.

  The printed predicate is the conjunction of two tests, one per argument: that `|x| < +inf` holds at every entry. An
  extended real whose absolute value is below `+inf` is neither infinity, so it is a real.
-/
import proofs.«146994_j60035052863713_1_alg».proof.Proof.Gen.Pre_finite_inputs
import Idealize.ShloMosaic.Lib.ReduceAll
import Idealize.ShloMosaic.Lib.ValueIdx
import proofs.«146994_j60035052863713_1_alg».proof.Proof.Consts

noncomputable section

namespace Cert.Finite

open Idealize.ShloMosaic Idealize.ShloMosaic.ValueIdx Cert.Pre_finite_inputs

-- the test over all entries is read through the library's lemma only: its body is a walk over every entry
attribute [local irreducible] Host.reduce

instance : Subsingleton S_.Idx := ⟨fun a b => funext fun d => d.elim0⟩

/-- An extended real whose absolute value compares below `+inf` is a real number. -/
theorem real_of_abs_lt (x : EReal)
    (h : Ideal.cmp .olt (max x (-x)) (Ideal.ofBits .f32 0x7F800000#32) = 1#1) : ∃ r : ℝ, x = (r : EReal) := by
  rw [Consts.ofBits_posInf] at h
  have hlt : max x (-x) < ⊤ := by
    by_contra hc
    have h0 : Ideal.cmp .olt (max x (-x)) ⊤ = 0#1 := by
      show BitVec.ofBool (decide (max x (-x) < ⊤)) = 0#1
      rw [decide_eq_false hc]; rfl
    rw [h0] at h
    exact absurd h (by decide)
  induction x using EReal.rec with
  | bot => simp at hlt
  | top => simp at hlt
  | coe r => exact ⟨r, rfl⟩

/-- UNDER THE PRECONDITION both arrays hold real numbers only. -/
theorem finite_of_pre (A B : FVec Ideal S32x3x512x512 .f32) (h : fn (F := Ideal) A B = fun _ => 1#1) :
    (∀ i, ∃ r : ℝ, A i = (r : EReal)) ∧ (∀ i, ∃ r : ℝ, B i = (r : EReal)) := by
  have h0 := congrFun h ix0
  dsimp only [fn] at h0
  obtain ⟨hA, hB⟩ := IntOp.andi_eq_one.1 h0
  exact ⟨fun i => real_of_abs_lt _ (Host.reduce_andi_all _ _ _ _ _ hA i),
    fun i => real_of_abs_lt _ (Host.reduce_andi_all _ _ _ _ _ hB i)⟩

end Cert.Finite

end
-- ==== Proof.lean ====
/-
  The saturation loss: a kernel that streams the two image batches once, against the plain reference.

  Both programs take two batches `g, t` of thirty-two three-channel 512 × 512 images and answer the mean over all
  pixels of `|sat g - sat t|`, where the saturation of a pixel is `(max - min) / max` of its channels after the affine
  map `x ↦ (x + 1) / 2`, and `0` where that maximum is not positive.

  The reference applies the map, takes channel maxima and minima, divides, and averages.  The kernel never applies the
  map: an increasing affine map commutes with maxima and minima, the common factor one half cancels in the quotient, and
  the test `(M + 1) / 2 > 0` is `M > -1`; it then sums one image at a time into one of two slots (sixteen images each)
  and the host adds the two slots, multiplies by one and divides by the pixel count.

  Over the extended reals the cancellation needs the channel values to be real numbers, which is what the precondition
  says; regrouping the sum and moving the factor one need nothing.  The frames of the two kernel programs are the
  generated ones; the reference's frame is its run with the result dropped; the idealization rewrote nothing.
-/
import proofs.«146994_j60035052863713_1_alg».proof.Defs
import proofs.«146994_j60035052863713_1_alg».proof.Proof.Gen.Kernel
import proofs.«146994_j60035052863713_1_alg».proof.Proof.Gen.Kernel.Frame
import proofs.«146994_j60035052863713_1_alg».proof.Proof.Gen.KernelIdeal
import proofs.«146994_j60035052863713_1_alg».proof.Proof.Gen.KernelIdeal.Frame
import proofs.«146994_j60035052863713_1_alg».proof.Proof.Gen.ReferenceIdeal
import proofs.«146994_j60035052863713_1_alg».proof.Proof.Gen.Pre_finite_inputs
import proofs.«146994_j60035052863713_1_alg».proof.Proof.KernelRun
import proofs.«146994_j60035052863713_1_alg».proof.Proof.RefValue
import proofs.«146994_j60035052863713_1_alg».proof.Proof.Finite
import proofs.«146994_j60035052863713_1_alg».proof.Proof.Loss
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- On finite arguments that agree, the kernel's result is its loss of the arguments, the reference's result is its
    own loss of them, and the two losses are equal. -/
theorem algebraic : Cert.algebraic_KernelIdeal_ReferenceIdeal := by
  intro m ρ m' ρ' hpre hagree
  refine ⟨fun c _ => Cert.Loss.kernelLoss (Cert.KernelIdeal.Body.arrA m c) (Cert.KernelIdeal.Body.arrB m c),
    Cert.KernelIdeal.Body.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v32_eq, (hagree c).1, (hagree c).2]
  funext i
  rw [Cert.ReferenceIdeal.RefValue.result_eq]
  obtain ⟨hA, hB⟩ := Cert.Finite.finite_of_pre _ _ (hpre c)
  exact (Cert.Loss.kernelLoss_eq_refLoss _ _ hA hB).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
